-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S8192x8192 : Shape := ⟨2, ![8192, 8192]⟩
abbrev S8192 : Shape := ⟨1, ![8192]⟩
abbrev S1 : Shape := ⟨1, ![1]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S16x8192 .f32) (main_arg1 : FVec F S8192x8192 .f32) (main_arg2 : FVec F S8192 .f32) (main_arg3 : FVec F S1 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S16x8192 : Shape := ⟨2, ![16, 8192]⟩
abbrev S8192x8192 : Shape := ⟨2, ![8192, 8192]⟩
abbrev S8192 : Shape := ⟨1, ![8192]⟩
abbrev S1 : Shape := ⟨1, ![1]⟩
abbrev S1x8192 : Shape := ⟨2, ![1, 8192]⟩
abbrev S512x8192 : Shape := ⟨2, ![512, 8192]⟩
abbrev S1x512 : Shape := ⟨2, ![1, 512]⟩
abbrev S16x512 : Shape := ⟨2, ![16, 512]⟩
abbrev S16x2048 : Shape := ⟨2, ![16, 2048]⟩
abbrev S512x2048 : Shape := ⟨2, ![512, 2048]⟩

abbrev nBuf : Space → Nat
  | .hbm => 7
  | .vmem => 7
  | .smem => 0
  | _ => 0

abbrev bufTy : (tb : Table) → Fin (tcTables nBuf tb) → BufTy
  | .hbm, ⟨0, _⟩ => ⟨S16x8192, .f32⟩
  | .hbm, ⟨1, _⟩ => ⟨S8192x8192, .f32⟩
  | .hbm, ⟨2, _⟩ => ⟨S8192, .f32⟩
  | .hbm, ⟨3, _⟩ => ⟨S1, .f32⟩
  | .hbm, ⟨4, _⟩ => ⟨S16x8192, .bf16⟩
  | .hbm, ⟨5, _⟩ => ⟨S1x8192, .f32⟩
  | .hbm, ⟨6, _⟩ => ⟨S16x8192, .f32⟩
  | .local _ .vmem, ⟨0, _⟩ => ⟨S16x8192, .bf16⟩
  | .local _ .vmem, ⟨1, _⟩ => ⟨S512x8192, .f32⟩
  | .local _ .vmem, ⟨2, _⟩ => ⟨S512x8192, .f32⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S16x512, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c2048_i32 : BitVec 32 := 2048#32
  let v1 : BitVec 32 := Scalar.muli c0_i32 c2048_i32
  v1
def k0_off1 (c0_i32 : BitVec 32) : Fin 2 → Nat :=
  let c0 : Index := 0#32
  let c2048_i32 : BitVec 32 := 2048#32
  let v1 : BitVec 32 := Scalar.muli c0_i32 c2048_i32
  let v2 : BitVec 32 := v1
  let v3 : Index := Scalar.indexCast v2
  ![0, v3.toNat]
def k0_off2 (c0_i32 : BitVec 32) : Fin 2 → Nat :=
  let c0_0 : Index := 0#32
  let c2048_i32 : BitVec 32 := 2048#32
  let v1 : BitVec 32 := Scalar.muli c0_i32 c2048_i32
  let v2 : BitVec 32 := v1
  let v6 : Index := Scalar.indexCast v2
  ![0, v6.toNat]
def k0_mult2 : BitVec 32 :=
  let c1_i32 : BitVec 32 := 1#32
  let c2048_i32_2 : BitVec 32 := 2048#32
  let v11 : BitVec 32 := Scalar.muli c1_i32 c2048_i32_2
  v11
def k0_mult3 : BitVec 32 :=
  let c2_i32 : BitVec 32 := 2#32
  let c2048_i32_6 : BitVec 32 := 2048#32
  let v21 : BitVec 32 := Scalar.muli c2_i32 c2048_i32_6
  v21
def k0_mult4 : BitVec 32 :=
  let c3_i32 : BitVec 32 := 3#32
  let c2048_i32_10 : BitVec 32 := 2048#32
  let v31 : BitVec 32 := Scalar.muli c3_i32 c2048_i32_10
  v31
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S8192_S1x8192 : S8192.ShapeCasts S1x8192
  h_S16x2048 : 0 < S16x2048.numel
  shapeCasts_S16x2048_S16x2048 : S16x2048.ShapeCasts S16x2048
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  inb_S16x512_S16x512_0_0 : ∀ a, (![0, 0] : Fin 2 → Nat) a + S16x512.size a ≤ S16x512.size a
  h_S16x512 : 0 < S16x512.numel
  dot_S16x2048_S512x2048_S16x512_1_1_0_0_n_n_wf : DotDims.WF S16x2048 S512x2048 S16x512 [1] [1] [0] [0] [] []
  hrank0 : 0 < grid0.rank
  k0_mult1_dvd : 2048 ∣ k0_mult1.toNat
  k0_off1_inb : ∀ (r : Fin 4), ∀ a, (k0_off1 (BitVec.ofNat 32 r.val)) a + S16x2048.size a ≤ S16x8192.size a
  k0_off2_inb : ∀ (r : Fin 4), ∀ a, (k0_off2 (BitVec.ofNat 32 r.val)) a + S512x2048.size a ≤ S512x8192.size a
  k0_mult2_dvd : 2048 ∣ k0_mult2.toNat
  k0_mult3_dvd : 2048 ∣ k0_mult3.toNat
  k0_mult4_dvd : 2048 ∣ k0_mult4.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x8192.size a
  hwx0_0 : ∀ i : grid0.Coords, EltTy.bits .bf16 = 32 ∨ (Rect.block (s := S16x8192) S16x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8192.size a ≤ S8192x8192.size a
  hwx0_1 : ∀ i : grid0.Coords, EltTy.bits .f32 = 32 ∨ (Rect.block (s := S8192x8192) S512x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S16x8192.size a
  hwx0_3 : ∀ i : grid0.Coords, EltTy.bits .f32 = 32 ∨ (Rect.block (s := S16x8192) S16x512.size (cc0_transform_3 i) (hinb0_3 i)).WholeWords (EltTy.packing .f32)

variable [Facts₀]

def dot_S16x2048_S512x2048_S16x512_1_1_0_0_n_n : DotDims S16x2048 S512x2048 S16x512 where
  lhsContracting := [1]
  rhsContracting := [1]
  lhsNonContracting := [0]
  rhsNonContracting := [0]
  lhsBatch := []
  rhsBatch := []
  wf := dot_S16x2048_S512x2048_S16x512_1_1_0_0_n_n_wf

abbrev win0_0 : Pipeline.Window sig grid0 :=
  Pipeline.Window.ofSpec (Memref.whole main_v0) S16x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8192 : Shape := ⟨2, ![16, 8192]⟩
abbrev S8192x8192 : Shape := ⟨2, ![8192, 8192]⟩
abbrev S8192 : Shape := ⟨1, ![8192]⟩
abbrev S1 : Shape := ⟨1, ![1]⟩
abbrev S1x8192 : Shape := ⟨2, ![1, 8192]⟩

abbrev nBuf : Space → Nat
  | .hbm => 9
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S8192x8192, .f32⟩
  | .hbm, ⟨2, _⟩ => ⟨S8192, .f32⟩
  | .hbm, ⟨3, _⟩ => ⟨S1, .f32⟩
  | .hbm, ⟨4, _⟩ => ⟨S8192x8192, .f32⟩
  | .hbm, ⟨5, _⟩ => ⟨S16x8192, .f32⟩
  | .hbm, ⟨6, _⟩ => ⟨S1x8192, .f32⟩
  | .hbm, ⟨7, _⟩ => ⟨S16x8192, .f32⟩
  | .hbm, ⟨8, _⟩ => ⟨S16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  transposes_S8192x8192_S8192x8192_1_0 : S8192x8192.Transposes [1, 0] S8192x8192
  bcast_S8192_S1x8192_1 : S8192.BroadcastsInDim S1x8192 (![1] : Fin 1 → Fin S1x8192.rank)
  bcast_S1x8192_S16x8192_0_1 : S1x8192.BroadcastsInDim S16x8192 (![0, 1] : Fin 2 → Fin S16x8192.rank)
  dot_S16x8192_S8192x8192_S16x8192_1_0_0_1_n_n_wf : DotDims.WF S16x8192 S8192x8192 S16x8192 [1] [0] [0] [1] [] []

variable [Facts₀]

def dot_S16x8192_S8192x8192_S16x8192_1_0_0_1_n_n : DotDims S16x8192 S8192x8192 S16x8192 where
  lhsContracting := [1]
  rhsContracting := [0]
  lhsNonContracting := [0]
  rhsNonContracting := [1]
  lhsBatch := []
  rhsBatch := []
  wf := dot_S16x8192_S8192x8192_S16x8192_1_0_0_1_n_n_wf

class Facts : Prop extends Facts₀ where

variable [Facts]
-- ==== Proof.DenseSpec.lean ====
/-
  The dense layer as one function of the argument arrays, and the one law of sums its two computations differ by.

  For x of shape [16, 8192], w of shape [8192, 8192] and b of shape [8192], the layer's value at (r, n) is
      (sum over k < 8192 of x (r, k) * w (n, k)) + b n,
  the product of x with the transpose of w, plus the bias along the rows. One program computes the inner sum whole;
  the other cuts the contraction range into four consecutive chunks of 2048, sums each chunk, and adds the four
  chunk sums one after the other onto zero. A finite sum in a commutative additive monoid does not depend on how its
  range is cut, and zero is neutral, so the two agree; nothing here needs the summands to be finite, so the law holds
  on the extended reals as it stands.
-/
import Idealize.ShloMosaic.PureOps.Ideal
import Idealize.ShloMosaic.Lib.ValueIdx

noncomputable section

open scoped BigOperators

namespace Cert.Dense

open Idealize.ShloMosaic Idealize.ShloMosaic.ValueIdx

/-- The layer's value: entry (r, n) is the inner product of row r of x with row n of w, plus b n. -/
def dense (x : (⟨2, ![16, 8192]⟩ : Shape).Idx → EReal) (w : (⟨2, ![8192, 8192]⟩ : Shape).Idx → EReal)
    (b : (⟨1, ![8192]⟩ : Shape).Idx → EReal) : (⟨2, ![16, 8192]⟩ : Shape).Idx → EReal :=
  fun i => (∑ k : Fin 8192, x (ix2 (i 0) k) * w (ix2 (i 1) k)) + b (ix1 (i 1))

/-- A sum over a range of length a + b is the sum over its first a terms plus the sum over its last b terms, the
    two parts given as families of their own that agree with the whole family term by term. -/
theorem sum_two_parts {M : Type*} [AddCommMonoid M] (a b : ℕ) (f : Fin (a + b) → M) (g : Fin a → M) (h : Fin b → M)
    (hg : ∀ i : Fin a, g i = f ⟨i.val, by omega⟩) (hh : ∀ i : Fin b, h i = f ⟨a + i.val, by omega⟩) :
    ∑ i, g i + ∑ i, h i = ∑ i, f i := by
  rw [Fin.sum_univ_add]
  exact congrArg₂ (· + ·) (Finset.sum_congr rfl fun i _ => hg i) (Finset.sum_congr rfl fun i _ => hh i)

/-- Four consecutive chunks of 2048 terms, each summed and the four sums added in turn onto zero, give the sum of
    all 8192 terms. -/
theorem sum_four_chunks {M : Type*} [AddCommMonoid M] (f : Fin 8192 → M) (g0 g1 g2 g3 : Fin 2048 → M)
    (h0 : ∀ k : Fin 2048, g0 k = f ⟨k.val, by omega⟩)
    (h1 : ∀ k : Fin 2048, g1 k = f ⟨2048 + k.val, by omega⟩)
    (h2 : ∀ k : Fin 2048, g2 k = f ⟨4096 + k.val, by omega⟩)
    (h3 : ∀ k : Fin 2048, g3 k = f ⟨6144 + k.val, by omega⟩) :
    0 + ∑ k, g0 k + ∑ k, g1 k + ∑ k, g2 k + ∑ k, g3 k = ∑ k, f k := by
  rw [zero_add]
  -- the first 4096 terms, then the first 6144, then all of them
  have e2 : ∑ k, g0 k + ∑ k, g1 k = ∑ i : Fin 4096, f ⟨i.val, by omega⟩ :=
    sum_two_parts 2048 2048 (fun i : Fin (2048 + 2048) => f ⟨i.val, by omega⟩) g0 g1 h0 h1
  have e3 : (∑ i : Fin 4096, f ⟨i.val, by omega⟩) + ∑ k, g2 k = ∑ i : Fin 6144, f ⟨i.val, by omega⟩ :=
    sum_two_parts 4096 2048 (fun i : Fin (4096 + 2048) => f ⟨i.val, by omega⟩) (fun i => f ⟨i.val, by omega⟩) g2
      (fun _ => rfl) h2
  have e4 : (∑ i : Fin 6144, f ⟨i.val, by omega⟩) + ∑ k, g3 k = ∑ k, f k :=
    sum_two_parts 6144 2048 (fun i : Fin (6144 + 2048) => f ⟨i.val, by omega⟩) (fun i => f ⟨i.val, by omega⟩) g3
      (fun _ => rfl) h3
  rw [e2, e3, e4]

end Cert.Dense

end
-- ==== Proof.RefDense.lean ====
/-
  The reference program computes the dense layer.

  Its five host operations are: transpose w; contract x's second axis with the transposed array's first; broadcast
  b to a row and then along the 16 rows; add. Read at an entry (r, n): the contraction is the sum over k of
  x (r, k) times the transposed array at (k, n), which is w (n, k); the twice-broadcast bias is b n. That is the
  layer's value as the specification states it, index maps and all.
-/
import proofs.«419658_j66056597012844_3_alg».proof.Proof.Gen.ReferenceIdeal.Read
import proofs.«419658_j66056597012844_3_alg».proof.Proof.DenseSpec

noncomputable section

namespace Cert.ReferenceIdeal.RefValue

open Cert.ReferenceIdeal Cert.ReferenceIdeal.Gen Cert.ReferenceIdeal.Read
open Idealize.ShloMosaic Idealize.ShloMosaic.ValueIdx

/-- The last stage of the reference, as a function of the three arrays it reads, is the dense layer. -/
theorem ref_is_dense (x0 : FVec Ideal S16x8192 .f32) (x1 : FVec Ideal S8192x8192 .f32) (x2 : FVec Ideal S8192 .f32) :
    val_main_v4 (F := Ideal) x0 x1 x2 = Cert.Dense.dense x0 x1 x2 := by
  funext i
  -- the left factor's index is (r, k); the right factor's, through the transpose, is (n, k); the bias's is n
  have el : ∀ k : Fin 8192, lidx_main_v1 i k = ix2 (i 0) k := fun k =>
    funext fun a => by match a with | ⟨0, _⟩ => rfl | ⟨1, _⟩ => rfl
  have er : ∀ k : Fin 8192, idx_main_v0 (ridx_main_v1 i k) = ix2 (i 1) k := fun k =>
    funext fun a => by match a with | ⟨0, _⟩ => rfl | ⟨1, _⟩ => rfl
  have eb : idx_main_v2 (idx_main_v3 i) = ix1 (i 1) :=
    funext fun a => by match a with | ⟨0, _⟩ => rfl
  rw [val_main_v4_apply, val_main_v1_apply, val_main_v3_apply, val_main_v2_apply]
  simp only [val_main_v0_apply, el, er, eb]
  rfl

end Cert.ReferenceIdeal.RefValue

end
-- ==== Proof.BlockPiece.lean ====
/-
  What one run of the body leaves in the output block, as a value, at any float instance.

  The body makes one store, of the whole 16 by 512 block at offset zero, so the block ends holding that store's
  value: the body's arithmetic applied to what its loads read. The loads read, from x's block, the four chunks of
  2048 columns starting at columns 0, 2048, 4096 and 6144 (all 16 rows); from w's block the same four column chunks
  (all 512 rows); and the bias block whole.
-/
import proofs.«419658_j66056597012844_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.BlockPiece

open Cert.KernelIdeal Cert.KernelIdeal.Gen

variable {F : FTy → Type} [FloatOps F]

theorem zero_offsets : (![0, 0] : Fin 2 → Nat) = fun _ => 0 := funext fun a => by fin_cases a <;> rfl

/-- Columns [o, o + 2048), all 16 rows, lie inside x's 16 by 8192 block. -/
theorem x_cols_inside (o : Nat) (ho : o + 2048 ≤ 8192) :
    ∀ a, (![0, o] : Fin 2 → Nat) a + S16x2048.size a ≤ S16x8192.size a :=
  Rect.inb₂ (d := ![16, 8192]) (off := ![0, o]) (size := ![16, 2048]) (by show 0 + 16 ≤ 16; omega) (by show o + 2048 ≤ 8192; omega)

/-- Columns [o, o + 2048), all 512 rows, lie inside w's 512 by 8192 block. -/
theorem w_cols_inside (o : Nat) (ho : o + 2048 ≤ 8192) :
    ∀ a, (![0, o] : Fin 2 → Nat) a + S512x2048.size a ≤ S512x8192.size a :=
  Rect.inb₂ (d := ![512, 8192]) (off := ![0, o]) (size := ![512, 2048]) (by show 0 + 512 ≤ 512; omega) (by show o + 2048 ≤ 8192; omega)

/-- The column chunk of x's block starting at column o. -/
abbrev xcols (o : Nat) (ho : o + 2048 ≤ 8192) (x : Vec F S16x8192 .bf16) : Vec F S16x2048 .bf16 :=
  View.ld (Val := Elt F) x (Rect.unit (s := S16x8192) ![0, o] S16x2048.size (x_cols_inside o ho))

/-- The column chunk of w's block starting at column o. -/
abbrev wcols (o : Nat) (ho : o + 2048 ≤ 8192) (w : Vec F S512x8192 .f32) : Vec F S512x2048 .f32 :=
  View.ld (Val := Elt F) w (Rect.unit (s := S512x8192) ![0, o] S512x2048.size (w_cols_inside o ho))

/-- The output block after the body, on staging buffers holding the blocks x, w and b: the stored value over the
    eight column chunks and b. -/
theorem block_after (c : Dev nD) (i : grid0.Coords) (a1 : Memref sig .tc .vmem S16x8192 .bf16) (h1 : a1.IsWhole)
    (a2 : Memref sig .tc .vmem S512x8192 .f32) (h2 : a2.IsWhole) (a3 : Memref sig .tc .vmem S1x512 .f32) (h3 : a3.IsWhole)
    (a4 : Memref sig .tc .vmem S16x512 .f32) (h4 : a4.IsWhole)
    (x : Vec F S16x8192 .bf16) (w : Vec F S512x8192 .f32) (b : Vec F S1x512 .f32) :
    out0_A_3 c i a1 h1 a2 h2 a3 h3 a4 h4 x w b
      = k0_pay1
          (k0_pay2 (xcols 0 (by omega) x) (wcols 0 (by omega) w) (xcols 2048 (by omega) x) (wcols 2048 (by omega) w)
            (xcols 4096 (by omega) x) (wcols 4096 (by omega) w))
          (k0_pay3 (xcols 6144 (by omega) x)) (k0_pay4 (wcols 6144 (by omega) w)) b := by
  unfold out0_A_3
  rw [View.read_writes_eq_canon _ _ _ (cover0_A_3 c i a1 h1 a2 h2 a3 h3 a4 h4 x w b)]
  unfold kernelRun0_A
  dsimp only
  sl_unfold_words
  rw [View.canon_unit_zero zero_offsets]
  simp only [View.readAt_eq_ld, h1.read_unread, h2.read_unread, h3.read_unread, View.ld_unit_zero (S := S1x512) zero_offsets]

end Cert.KernelIdeal.BlockPiece

end
-- ==== Proof.BlockEntry.lean ====
/-
  One grid point's result block, entry by entry, on the extended reals.

  At a grid point the body holds three input blocks: all of x (16 rows, 8192 columns), 512 consecutive rows of w
  (8192 columns each) and the matching 512 entries of b as one row. It cuts the 8192 columns into four chunks of
  2048, multiplies x's chunk by the transpose of w's chunk (a product that contracts the column axis of both),
  adds the four products one after the other onto a zero block, and adds the bias row to every one of the 16 rows.

  Read at an entry (p, q) of the block: each chunk's product is the sum over its 2048 columns k of
  x (p, k) * w (q, k); the four chunk sums added onto zero are the sum over all 8192 columns (the chunk law of the
  specification module); the bias row contributes b (0, q). The change of number format on w's chunk is the identity
  on the extended reals and the casts between equal shapes are the identity at any values.
-/
import proofs.«419658_j66056597012844_3_alg».proof.Proof.Gen.KernelIdeal.Skeleton
import proofs.«419658_j66056597012844_3_alg».proof.Proof.DenseSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockEntry

open Cert.KernelIdeal Cert.KernelIdeal.Gen
open Idealize.ShloMosaic Idealize.ShloMosaic.ValueIdx

/-! ## The product's index maps, axis by axis

The product contracts axis 1 of both operands; the result's row comes from the left operand's axis 0 and its
column from the right operand's axis 0. -/

theorem lhs_axis0 (i : S16x512.Idx) (q : dot_S16x2048_S512x2048_S16x512_1_1_0_0_n_n.contr.Idx) :
    (dot_S16x2048_S512x2048_S16x512_1_1_0_0_n_n.lhsIdx i q 0).val = (i 0).val := by
  unfold DotDims.lhsIdx
  rw [dif_neg (show ¬(0 : Fin S16x2048.rank) ∈ dot_S16x2048_S512x2048_S16x512_1_1_0_0_n_n.lhsBatch by decide), dif_pos (show (0 : Fin S16x2048.rank) ∈ dot_S16x2048_S512x2048_S16x512_1_1_0_0_n_n.lhsNonContracting by decide)]
  rfl
theorem lhs_axis1 (i : S16x512.Idx) (q : dot_S16x2048_S512x2048_S16x512_1_1_0_0_n_n.contr.Idx) :
    (dot_S16x2048_S512x2048_S16x512_1_1_0_0_n_n.lhsIdx i q 1).val = (q ⟨0, by decide⟩).val :=
  dot_S16x2048_S512x2048_S16x512_1_1_0_0_n_n.lhsIdx_val_of_single rfl i q
theorem rhs_axis0 (i : S16x512.Idx) (q : dot_S16x2048_S512x2048_S16x512_1_1_0_0_n_n.contr.Idx) :
    (dot_S16x2048_S512x2048_S16x512_1_1_0_0_n_n.rhsIdx i q 0).val = (i 1).val := by
  unfold DotDims.rhsIdx
  rw [dif_neg (show ¬(0 : Fin S512x2048.rank) ∈ dot_S16x2048_S512x2048_S16x512_1_1_0_0_n_n.rhsBatch by decide), dif_pos (show (0 : Fin S512x2048.rank) ∈ dot_S16x2048_S512x2048_S16x512_1_1_0_0_n_n.rhsNonContracting by decide)]
  rfl
theorem rhs_axis1 (i : S16x512.Idx) (q : dot_S16x2048_S512x2048_S16x512_1_1_0_0_n_n.contr.Idx) :
    (dot_S16x2048_S512x2048_S16x512_1_1_0_0_n_n.rhsIdx i q 1).val = (q ⟨0, by decide⟩).val :=
  dot_S16x2048_S512x2048_S16x512_1_1_0_0_n_n.rhsIdx_val_of_single rfl i q

/-- One chunk's product into a zero block, at entry (p, q): the sum over the chunk's 2048 columns of the left
    operand's row p times the right operand's row q. -/
theorem chunk_product (xc : FVec Ideal S16x2048 .bf16) (wc : FVec Ideal S512x2048 .bf16) (p : Fin 16) (q : Fin 512) :
    matmul dot_S16x2048_S512x2048_S16x512_1_1_0_0_n_n none xc wc (constant (F := Ideal) S16x512 .f32 0x00000000#32) (ix2 p q)
      = ∑ k : Fin 2048, xc (ix2 p k) * wc (ix2 q k) := by
  simp only [matmul]
  rw [Ideal.matmul_constant_zero_apply, ← Equiv.sum_comp (contrEquiv1 dot_S16x2048_S512x2048_S16x512_1_1_0_0_n_n 2048 rfl rfl).symm]
  refine Finset.sum_congr rfl fun k _ => ?_
  have hk := contrEquiv1_symm_val dot_S16x2048_S512x2048_S16x512_1_1_0_0_n_n 2048 rfl rfl k
  have el : dot_S16x2048_S512x2048_S16x512_1_1_0_0_n_n.lhsIdx (ix2 p q) ((contrEquiv1 dot_S16x2048_S512x2048_S16x512_1_1_0_0_n_n 2048 rfl rfl).symm k) = ix2 p k := funext fun a => Fin.ext (by
    match a with
    | ⟨0, _⟩ => exact lhs_axis0 _ _
    | ⟨1, _⟩ => exact (lhs_axis1 _ _).trans hk)
  have er : dot_S16x2048_S512x2048_S16x512_1_1_0_0_n_n.rhsIdx (ix2 p q) ((contrEquiv1 dot_S16x2048_S512x2048_S16x512_1_1_0_0_n_n 2048 rfl rfl).symm k) = ix2 q k := funext fun a => Fin.ext (by
    match a with
    | ⟨0, _⟩ => exact rhs_axis0 _ _
    | ⟨1, _⟩ => exact (rhs_axis1 _ _).trans hk)
  rw [el, er]

/-! ## A chunk of columns read at an index -/

/-- Columns [o, o + 2048) of x's block, at (p, k): x at (p, o + k). -/
theorem xcols_apply (o : Nat) (ho : o + 2048 ≤ 8192)
    (h : ∀ a, (![0, o] : Fin 2 → Nat) a + S16x2048.size a ≤ S16x8192.size a)
    (x : FVec Ideal S16x8192 .bf16) (p : Fin 16) (k : Fin 2048) :
    View.ld (Val := Elt Ideal) (e' := .bf16) x (Rect.unit (s := S16x8192) ![0, o] S16x2048.size h) (ix2 p k) = x (ix2 p ⟨o + k.val, by omega⟩) :=
  congrArg x (funext fun a => Fin.ext (by
    match a with
    | ⟨0, _⟩ => show 0 + 1 * p.val = p.val; omega
    | ⟨1, _⟩ => show o + 1 * k.val = o + k.val; omega))

/-- Columns [o, o + 2048) of w's block, at (q, k): w at (q, o + k). -/
theorem wcols_apply (o : Nat) (ho : o + 2048 ≤ 8192)
    (h : ∀ a, (![0, o] : Fin 2 → Nat) a + S512x2048.size a ≤ S512x8192.size a)
    (w : FVec Ideal S512x8192 .f32) (q : Fin 512) (k : Fin 2048) :
    View.ld (Val := Elt Ideal) (e' := .f32) w (Rect.unit (s := S512x8192) ![0, o] S512x2048.size h) (ix2 q k) = w (ix2 q ⟨o + k.val, by omega⟩) :=
  congrArg w (funext fun a => Fin.ext (by
    match a with
    | ⟨0, _⟩ => show 0 + 1 * q.val = q.val; omega
    | ⟨1, _⟩ => show o + 1 * k.val = o + k.val; omega))

/-! ## The block's entry -/

/-- What the body stores, at entry (p, q), over the eight chunks it loads: given that chunk c of x's block holds
    x at columns 2048 c + k and chunk c of w's block holds w there, the stored value is the inner product of x's
    row p with w's row q over all 8192 columns, plus the bias row's entry q. -/
theorem block_entry (x : FVec Ideal S16x8192 .bf16) (w : FVec Ideal S512x8192 .f32) (b : FVec Ideal S1x512 .f32)
    (xc0 xc1 xc2 xc3 : FVec Ideal S16x2048 .bf16) (wc0 wc1 wc2 wc3 : FVec Ideal S512x2048 .f32)
    (hx0 : ∀ (p : Fin 16) (k : Fin 2048), xc0 (ix2 p k) = x (ix2 p ⟨0 + k.val, by omega⟩))
    (hw0 : ∀ (q : Fin 512) (k : Fin 2048), wc0 (ix2 q k) = w (ix2 q ⟨0 + k.val, by omega⟩))
    (hx1 : ∀ (p : Fin 16) (k : Fin 2048), xc1 (ix2 p k) = x (ix2 p ⟨2048 + k.val, by omega⟩))
    (hw1 : ∀ (q : Fin 512) (k : Fin 2048), wc1 (ix2 q k) = w (ix2 q ⟨2048 + k.val, by omega⟩))
    (hx2 : ∀ (p : Fin 16) (k : Fin 2048), xc2 (ix2 p k) = x (ix2 p ⟨4096 + k.val, by omega⟩))
    (hw2 : ∀ (q : Fin 512) (k : Fin 2048), wc2 (ix2 q k) = w (ix2 q ⟨4096 + k.val, by omega⟩))
    (hx3 : ∀ (p : Fin 16) (k : Fin 2048), xc3 (ix2 p k) = x (ix2 p ⟨6144 + k.val, by omega⟩))
    (hw3 : ∀ (q : Fin 512) (k : Fin 2048), wc3 (ix2 q k) = w (ix2 q ⟨6144 + k.val, by omega⟩))
    (p : Fin 16) (q : Fin 512) :
    k0_pay1 (F := Ideal) (k0_pay2 (F := Ideal) xc0 wc0 xc1 wc1 xc2 wc2) (k0_pay3 (F := Ideal) xc3) (k0_pay4 (F := Ideal) wc3)
        b (ix2 p q)
      = (∑ k : Fin 8192, x (ix2 p k) * w (ix2 q k)) + b (ix2 (0 : Fin 1) q) := by
  unfold k0_pay1 k0_pay2 k0_pay3 k0_pay4
  simp only [addf_apply, shapeCast_self, chunk_product, truncf_apply, broadcastTo_1b_ab_apply, broadcast_apply]
  refine congrArg (· + b (ix2 (0 : Fin 1) q)) ?_
  show Ideal.ofBits .f32 0x00000000#32 + _ + _ + _ + _ = _
  rw [Ideal.ofBits_zero_f32]
  exact Cert.Dense.sum_four_chunks (fun k : Fin 8192 => x (ix2 p k) * w (ix2 q k)) _ _ _ _
    (fun k => by rw [hx0, hw0]; simp only [Nat.zero_add]) (fun k => by rw [hx1, hw1]) (fun k => by rw [hx2, hw2])
    (fun k => by rw [hx3, hw3])

end Cert.KernelIdeal.BlockEntry

end
-- ==== Proof.DenseArray.lean ====
/-
  The kernel's result array, after its run on the extended reals, is the dense layer of the argument arrays.

  The grid has 16 points. At point t the output window is the block of all 16 rows and columns [512 t, 512 t + 512) of
  the result; x's window is the whole of x at every point; w's window is rows [512 t, 512 t + 512) of w, all columns;
  and the bias window is columns [512 t, 512 t + 512) of the bias laid out as one row. Before the call the host changes
  x's number format (the identity on the extended reals) and lays the bias out as a 1 by 8192 array (entry (0, n) is
  b n).

  So entry (p, q) of the block written back at point t is, by the block's entry formula, the inner product of x's
  row p with w's row 512 t + q, plus b (512 t + q): the dense layer at (p, 512 t + q), which is where the block's
  entry (p, q) sits in the result. The 16 blocks tile the result's columns, each written back once, so the whole array
  ends at the dense layer.
-/
import proofs.«419658_j66056597012844_3_alg».proof.Proof.Gen.KernelIdeal.Value
import proofs.«419658_j66056597012844_3_alg».proof.Proof.BlockPiece
import proofs.«419658_j66056597012844_3_alg».proof.Proof.BlockEntry
import proofs.«419658_j66056597012844_3_alg».proof.Proof.DenseSpec
import Idealize.ShloMosaic.Lib.StableHlo.Run
import Idealize.ShloMosaic.Lib.ValueIdx

noncomputable section

open Idealize.ShloMosaic Idealize.ShloMosaic.TcCoe Idealize.SL.Sem Idealize.ShloMosaic.StableHlo
open Idealize.ShloMosaic.Pipeline (Dat)

namespace Cert.KernelIdeal.ArrayValue

open Cert.KernelIdeal Cert.KernelIdeal.Gen Cert.KernelIdeal.Value Idealize.ShloMosaic.ValueIdx

variable (m : (ℓ : Loc nD τ sig) → Buf (Elt Ideal) ℓ) (ρ : Dev nD → PrngReg)

/-! ## The arrays and the blocks, at their literal types -/

/-- The three argument arrays the layer reads, as launched. -/
abbrev xarr (c : Dev nD) : FVec Ideal S16x8192 .f32 := m ((c : Thread nD τ).loc main_arg0)
abbrev warr (c : Dev nD) : FVec Ideal S8192x8192 .f32 := m ((c : Thread nD τ).loc main_arg1)
abbrev barr (c : Dev nD) : FVec Ideal S8192 .f32 := m ((c : Thread nD τ).loc main_arg2)

/-- The result array's contents: the dense layer of the three. -/
abbrev result (c : Dev nD) : Buf (Elt Ideal) ((c : Thread nD τ).loc main_v2) :=
  Cert.Dense.dense (xarr m c) (warr m c) (barr m c)

/-- The three input blocks at point t. -/
abbrev xblk (c : Dev nD) (t : Fin cfg0.N) : FVec Ideal S16x8192 .bf16 := iblk m c 0 t
abbrev wblk (c : Dev nD) (t : Fin cfg0.N) : FVec Ideal S512x8192 .f32 := iblk m c 1 t
abbrev bblk (c : Dev nD) (t : Fin cfg0.N) : FVec Ideal S1x512 .f32 := iblk m c 2 t

/-- Column (or row) 512 t + q of an axis of extent 8192: where entry q of point t's block sits. -/
abbrev at512 (t : Fin cfg0.N) (q : Fin 512) : Fin 8192 :=
  ⟨512 * t.val + q.val, by have hN : cfg0.N = 16 := N_0; have := t.isLt; omega⟩

/-! ## The host operations before the call -/

/-- The array x's window stages is x in another number format: the same extended reals. -/
theorem staged_x (c : Dev nD) : (V m c main_v0 : S16x8192.Idx → EReal)
    = truncf (F := Ideal) .bf16 (m ((c : Thread nD τ).loc main_arg0)) bitsLt_bf16_f32 := by
  dsimp only [Gen.V, Gen.hostOps0]; after_results

/-- The array the bias window stages is the bias laid out as one row. -/
theorem staged_b (c : Dev nD) : (V m c main_v1 : S1x8192.Idx → EReal)
    = shapeCast S1x8192 (m ((c : Thread nD τ).loc main_arg2)) shapeCasts_S8192_S1x8192 := by
  dsimp only [Gen.V, Gen.hostOps0]; after_results; rfl

/-! ## The index maps, decided over the 16 points -/

theorem index_maps : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-! ## The input blocks read off the argument arrays -/

/-- x's block at any point is x. -/
theorem xblk_apply (c : Dev nD) (t : Fin cfg0.N) (p : Fin 16) (k : Fin 8192) :
    xblk m c t (ix2 p k) = xarr m c (ix2 p k) := by
  obtain ⟨e0, e1, -⟩ := index_maps t
  show V m c main_v0 (((cfg0.win 0).blk t).view.emb (ix2 p k)) = m ((c : Thread nD τ).loc main_arg0) (ix2 p k)
  rw [staged_x]
  show m ((c : Thread nD τ).loc main_arg0) (((cfg0.win 0).blk t).view.emb (ix2 p k)) = _
  refine congrArg _ (funext fun a => Fin.ext ?_)
  match a with
  | ⟨0, _⟩ => show win0_0.index t (0 : Fin 2) * 16 + 1 * p.val = p.val; omega
  | ⟨1, _⟩ => show win0_0.index t (1 : Fin 2) * 8192 + 1 * k.val = k.val; omega

/-- w's block at point t is rows 512 t onward of w. -/
theorem wblk_apply (c : Dev nD) (t : Fin cfg0.N) (q : Fin 512) (k : Fin 8192) :
    wblk m c t (ix2 q k) = warr m c (ix2 (at512 t q) k) := by
  obtain ⟨-, -, e0, e1, -⟩ := index_maps t
  show V m c main_arg1 (((cfg0.win 1).blk t).view.emb (ix2 q k)) = m ((c : Thread nD τ).loc main_arg1) (ix2 (at512 t q) k)
  rw [V_main_arg1]
  refine congrArg _ (funext fun a => Fin.ext ?_)
  match a with
  | ⟨0, _⟩ => show win0_1.index t (0 : Fin 2) * 512 + 1 * q.val = 512 * t.val + q.val; omega
  | ⟨1, _⟩ => show win0_1.index t (1 : Fin 2) * 8192 + 1 * k.val = k.val; omega

/-- The bias block at point t is entries 512 t onward of the bias. -/
theorem bblk_apply (c : Dev nD) (t : Fin cfg0.N) (q : Fin 512) :
    bblk m c t (ix2 (0 : Fin 1) q) = barr m c (ix1 (at512 t q)) := by
  obtain ⟨-, -, -, -, e0, e1, -⟩ := index_maps t
  show V m c main_v1 (((cfg0.win 2).blk t).view.emb (ix2 (0 : Fin 1) q)) = m ((c : Thread nD τ).loc main_arg2) (ix1 (at512 t q))
  rw [staged_b]
  refine shapeCast_apply _ _ _ _ ?_
  -- both positions in row-major order: 512 t + q in the flat bias, row 0 and column 512 t + q in its one-row layout
  refine (Shape.rowMajor_val_one (d := ![8192]) (ix1 (at512 t q))).trans ?_
  refine Eq.trans ?_ (Shape.rowMajor_val_two (d := ![1, 8192]) (((cfg0.win 2).blk t).view.emb (ix2 (0 : Fin 1) q))).symm
  show 512 * t.val + q.val = (win0_2.index t (0 : Fin 2) * 1 + 1 * 0) * 8192 + (win0_2.index t (1 : Fin 2) * 512 + 1 * q.val)
  omega

/-! ## What a point writes back, and the array after the run -/

/-- Where entry (p, q) of point t's output block sits in the result: row p, column 512 t + q. -/
theorem out_emb (t : Fin cfg0.N) (p : Fin 16) (q : Fin 512) :
    ((cfg0.win 3).blk t).view.emb (ix2 p q) = ix2 p (at512 t q) := by
  obtain ⟨-, -, -, -, -, -, e0, e1⟩ := index_maps t
  funext a
  apply Fin.ext
  match a with
  | ⟨0, _⟩ => show win0_3.index t (0 : Fin 2) * 16 + 1 * p.val = p.val; omega
  | ⟨1, _⟩ => show win0_3.index t (1 : Fin 2) * 512 + 1 * q.val = 512 * t.val + q.val; omega

/-- What point t writes back is block t of the dense layer. -/
theorem flushed_eq (c : Dev nD) (t : Fin cfg0.N) :
    (dats m 0 c).flushed 3 t = ((cfg0.win 3).blk t).view.read (Elt Ideal) (result m c) := by
  rw [flushed3_A, BlockPiece.block_after]
  funext y
  obtain ⟨p, q, rfl⟩ : ∃ (p : Fin 16) (q : Fin 512), y = ix2 p q := ⟨y 0, y 1, eq_ix2 y⟩
  show k0_pay1 (F := Ideal)
      (k0_pay2 (F := Ideal) (BlockPiece.xcols 0 (by omega) (xblk m c t)) (BlockPiece.wcols 0 (by omega) (wblk m c t))
        (BlockPiece.xcols 2048 (by omega) (xblk m c t)) (BlockPiece.wcols 2048 (by omega) (wblk m c t))
        (BlockPiece.xcols 4096 (by omega) (xblk m c t)) (BlockPiece.wcols 4096 (by omega) (wblk m c t)))
      (k0_pay3 (F := Ideal) (BlockPiece.xcols 6144 (by omega) (xblk m c t)))
      (k0_pay4 (F := Ideal) (BlockPiece.wcols 6144 (by omega) (wblk m c t))) (bblk m c t) (ix2 p q)
    = Cert.Dense.dense (xarr m c) (warr m c) (barr m c) (((cfg0.win 3).blk t).view.emb (ix2 p q))
  refine (BlockEntry.block_entry (xblk m c t) (wblk m c t) (bblk m c t) _ _ _ _ _ _ _ _
    (fun p k => BlockEntry.xcols_apply 0 (by omega) _ (xblk m c t) p k)
    (fun q k => BlockEntry.wcols_apply 0 (by omega) _ (wblk m c t) q k)
    (fun p k => BlockEntry.xcols_apply 2048 (by omega) _ (xblk m c t) p k)
    (fun q k => BlockEntry.wcols_apply 2048 (by omega) _ (wblk m c t) q k)
    (fun p k => BlockEntry.xcols_apply 4096 (by omega) _ (xblk m c t) p k)
    (fun q k => BlockEntry.wcols_apply 4096 (by omega) _ (wblk m c t) q k)
    (fun p k => BlockEntry.xcols_apply 6144 (by omega) _ (xblk m c t) p k)
    (fun q k => BlockEntry.wcols_apply 6144 (by omega) _ (wblk m c t) q k) p q).trans ?_
  rw [out_emb]
  unfold Cert.Dense.dense
  simp only [xblk_apply, wblk_apply, bblk_apply]

/-- An index of the result is in point t's block iff each coordinate is in the block's range on its axis. -/
theorem mem_blk (t : Fin cfg0.N) (i : S16x8192.Idx) :
    i ∈ ((cfg0.win 3).blk t).view.set ↔ ∀ a : Fin 2, win0_3.index t a * S16x512.size a ≤ (i a).val ∧ (i a).val < win0_3.index t a * S16x512.size a + S16x512.size a := by
  show i ∈ ((View.whole main_v2).slice (win0_3.rect t)).set ↔ _
  rw [View.set_slice_whole, Rect.mem_set_unit]
  exact Iff.rfl

/-- Every index of the result lies in the block of the point its column falls to. -/
theorem covered (i : S16x8192.Idx) :
    ∃ t : Fin cfg0.N, (cfg0.win 3).flush t = true ∧ i ∈ ((cfg0.win 3).blk t).view.set := by
  have hN : cfg0.N = 16 := N_0
  have hi0 : (i 0).val < 16 := (i 0).isLt
  have hi1 : (i 1).val < 8192 := (i 1).isLt
  let t : Fin cfg0.N := ⟨(i 1).val / 512, by omega⟩
  obtain ⟨-, -, -, -, -, -, e0, e1⟩ := index_maps t
  have ht : t.val = (i 1).val / 512 := rfl
  refine ⟨t, flush0_3 t, ?_⟩
  rw [mem_blk]
  intro a
  match a with
  | ⟨0, _⟩ => show win0_3.index t (0 : Fin 2) * 16 ≤ (i 0).val ∧ (i 0).val < win0_3.index t (0 : Fin 2) * 16 + 16; omega
  | ⟨1, _⟩ => show win0_3.index t (1 : Fin 2) * 512 ≤ (i 1).val ∧ (i 1).val < win0_3.index t (1 : Fin 2) * 512 + 512; omega

/-- The result array after the run is the dense layer. -/
theorem final (c : Dev nD) : (dats m 0 c).arrAt 3 cfg0.N = result m c :=
  (dats m 0 c).arrAt_eq_of_cover 3 (result m c) (fun t _ => flushed_eq m c t) covered

/-- The run, read: the result array at the dense layer of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.ArrayValue

end
-- ==== Proof.lean ====
/-
  The kernel computes the dense layer x w^T + b that the reference computes, on the extended reals.

  The reference contracts x with the transpose of w over all 8192 columns at once and adds the bias along the rows.
  The kernel tiles the 8192 output columns into 16 blocks of 512; for each block it cuts the contraction range into
  four chunks of 2048 columns, multiplies chunk by chunk, adds the four products one after the other onto a zero block,
  and adds the block's 512 bias entries to each row. On the extended reals the changes of number format are the
  identity, so the only difference between the two is how one finite sum is cut into parts: a finite sum in a
  commutative additive monoid is the sum of its consecutive parts and zero is neutral. No finiteness of the inputs is
  used; the precondition is never opened.

  The steps: the specification and the chunk law (DenseSpec); the reference's last stage is the specification
  (RefDense); the body leaves, in the output block, its stored value over the eight column chunks it loads
  (BlockPiece); that value at an entry is the full inner product plus the bias entry (BlockEntry); each point writes
  back its block of the specification and the 16 blocks tile the result (DenseArray). The three frame claims are the
  two kernels' generated frames and the reference's generated run with its result dropped; the idealization rewrote
  nothing, so its claim is trivial.
-/
import proofs.«419658_j66056597012844_3_alg».proof.Defs
import proofs.«419658_j66056597012844_3_alg».proof.Proof.Gen.Kernel
import proofs.«419658_j66056597012844_3_alg».proof.Proof.Gen.Kernel.Skeleton
import proofs.«419658_j66056597012844_3_alg».proof.Proof.Gen.Kernel.Launch
import proofs.«419658_j66056597012844_3_alg».proof.Proof.Gen.Kernel.Points
import proofs.«419658_j66056597012844_3_alg».proof.Proof.Gen.Kernel.Frame
import proofs.«419658_j66056597012844_3_alg».proof.Proof.Gen.KernelIdeal
import proofs.«419658_j66056597012844_3_alg».proof.Proof.Gen.KernelIdeal.Skeleton
import proofs.«419658_j66056597012844_3_alg».proof.Proof.Gen.KernelIdeal.Launch
import proofs.«419658_j66056597012844_3_alg».proof.Proof.Gen.KernelIdeal.Points
import proofs.«419658_j66056597012844_3_alg».proof.Proof.Gen.KernelIdeal.Frame
import proofs.«419658_j66056597012844_3_alg».proof.Proof.Gen.ReferenceIdeal
import proofs.«419658_j66056597012844_3_alg».proof.Proof.Gen.KernelIdeal.Value
import proofs.«419658_j66056597012844_3_alg».proof.Proof.Gen.ReferenceIdeal.Run
import proofs.«419658_j66056597012844_3_alg».proof.Proof.Gen.ReferenceIdeal.Read
import proofs.«419658_j66056597012844_3_alg».proof.Proof.Gen.Pre_finite_inputs
import proofs.«419658_j66056597012844_3_alg».proof.Proof.RefDense
import proofs.«419658_j66056597012844_3_alg».proof.Proof.DenseArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run, with the statement about its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the arguments both programs end with the result array at the dense layer of the
    arguments: the kernel's by its blocks, the reference's by its last stage. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_is_dense,
    (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
